-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .bf16⟩
  | .hbm, ⟨4, _⟩ => ⟨S4096x4096, .bf16⟩
  | .hbm, ⟨5, _⟩ => ⟨S1x4096, .f32⟩
  | .hbm, ⟨6, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .bf16 = 32 ∨ (Rect.block (s := S2048x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .f32 = 32 ∨ (Rect.block (s := S2048x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Body.lean ====
/-
  What one grid point's body leaves behind, as values of what it found.

  The body keeps a running block `acc` of shape [512, 1024] in a scratch buffer that lives across the points of one
  run over the contraction axis. At the run's first point it overwrites `acc` with zeros and then adds the product
  of the point's x-block [512, 1024] and w-block [1024, 1024]; at every later point it adds the point's product to
  what the point before left; at the run's last point it also writes `acc` plus the bias row (broadcast over the
  512 rows) into the output block. Each lemma below says so for one of the three control cases, in terms of the
  body's own arithmetic: `step acc x w = acc + x·w` and `withBias acc b = acc + rows of b`.
-/
import proofs.«123886_j11424613007510_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Every access of the body is at offset (0, 0) of a whole buffer. -/
theorem hz : (![0, 0] : Fin 2 → Nat) = fun _ => 0 := funext fun a => by fin_cases a <;> rfl

/-- The block of zeros the first point of a run stores. -/
abbrev zeros : Vec F S512x1024 .f32 := k0_pay1

/-- One accumulation: the running block plus the product of an x-block and a w-block. -/
abbrev step (acc : Vec F S512x1024 .f32) (x : Vec F S512x1024 .bf16) (w : Vec F S1024x1024 .bf16) :
    Vec F S512x1024 .f32 := k0_pay2 acc x w

/-- The last point's output: the running block plus the bias row on every row. -/
abbrev withBias (acc : Vec F S512x1024 .f32) (b : Vec F S1x1024 .f32) : Vec F S512x1024 .f32 := k0_pay3 acc b

/-- First point of a run: the scratch ends at `0 + x·w` (the zeros are stored, read back, and added to). -/
theorem acc_first (c : Dev nD) (i : grid0.Coords) (a3 : Memref sig .tc .vmem S512x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i)
    (x0 : Vec F S512x1024 .bf16) (x1 : Vec F S1024x1024 .bf16) (x2 : Vec F S1x1024 .f32) :
    sout0_A_0 c i a3 h3 a4 h4 a5 h5 a6 h6 a7 h7 hc0 hc1 x0 x1 x2 = step zeros x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S512x1024) hz,
    View.ld_unit_zero (S := S1024x1024) hz]

/-- A middle point of a run: the scratch ends at what the point before left plus `x·w`. -/
theorem acc_middle (c : Dev nD) (i : grid0.Coords) (a3 : Memref sig .tc .vmem S512x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : ¬cond0_1 i)
    (x0 : Vec F S512x1024 .bf16) (x1 : Vec F S1024x1024 .bf16) (x2 : Vec F S1x1024 .f32) (xs0 : Vec F S512x1024 .f32) :
    sout0_B_0 c i a3 h3 a4 h4 a5 h5 a6 h6 a7 h7 hc0 hc1 x0 x1 x2 xs0 = step xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S512x1024) hz,
    View.ld_unit_zero (S := S1024x1024) hz]

/-- The last point of a run: the scratch likewise, -/
theorem acc_last (c : Dev nD) (i : grid0.Coords) (a3 : Memref sig .tc .vmem S512x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x1024 .bf16) (x1 : Vec F S1024x1024 .bf16) (x2 : Vec F S1x1024 .f32) (xs0 : Vec F S512x1024 .f32) :
    sout0_C_0 c i a3 h3 a4 h4 a5 h5 a6 h6 a7 h7 hc0 hc1 x0 x1 x2 xs0 = step xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S512x1024) hz,
    View.ld_unit_zero (S := S1024x1024) hz]

/-- and the output block is that new scratch, read back, plus the bias row. -/
theorem out_last (c : Dev nD) (i : grid0.Coords) (a3 : Memref sig .tc .vmem S512x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x1024 .bf16) (x1 : Vec F S1024x1024 .bf16) (x2 : Vec F S1x1024 .f32) (xs0 : Vec F S512x1024 .f32) :
    out0_C_3 c i a3 h3 a4 h4 a5 h5 a6 h6 a7 h7 hc0 hc1 x0 x1 x2 xs0 = withBias (step xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.readCov_unit_zero (S := S512x1024) _ hz, View.ld_unit_zero (S := S512x1024) hz,
    View.ld_unit_zero (S := S1024x1024) hz, View.ld_unit_zero (S := S1x1024) hz]

end Cert.KernelIdeal.Body

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Entry.lean ====
/-
  The body's arithmetic at one entry, on the extended reals.

  With floats read as extended reals and every operation exact: the block of zeros is 0 at every entry; one
  accumulation adds to the running block's entry (p, q) the inner product of row p of the x-block with column q of the
  w-block, a sum over the 1024 positions of the block's slice of the contraction axis; the last point's output adds to
  the running block's entry (p, q) entry q of the bias row.
-/
import proofs.«123886_j11424613007510_1_alg».proof.Proof.Body
import proofs.«123886_j11424613007510_1_alg».proof.Proof.LibPlainDot
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Body

open Cert.KernelIdeal Cert.KernelIdeal.Gen

/-- The zeros block is 0 everywhere. -/
theorem zeros_apply (p : Fin 512) (q : Fin 1024) : zeros (F := Ideal) (ix2 p q) = 0 := by
  unfold zeros k0_pay1
  simp only [shapeCast_self]
  show Ideal.ofBits .f32 0x00000000#32 = 0
  exact Ideal.ofBits_zero_f32

/-- One accumulation at (p, q): the running entry plus `∑ k, x (p, k) · w (k, q)` over the block's 1024 positions. -/
theorem step_apply (acc : Vec Ideal S512x1024 .f32) (x : Vec Ideal S512x1024 .bf16) (w : Vec Ideal S1024x1024 .bf16)
    (p : Fin 512) (q : Fin 1024) :
    step acc x w (ix2 p q) = acc (ix2 p q) + ∑ k : Fin 1024, x (ix2 p k) * w (ix2 k q) := by
  unfold step k0_pay2
  simp only [shapeCast_self]
  rw [addf_apply]
  exact congrArg (acc (ix2 p q) + ·)
    (PlainDot.matmul_zero_apply dot_S512x1024_S1024x1024_S512x1024_1_0_0_1_n_n rfl rfl rfl rfl rfl rfl rfl rfl none x w p q)

/-- The last point's output at (p, q): the running entry plus the bias row's entry q. -/
theorem withBias_apply (acc : Vec Ideal S512x1024 .f32) (b : Vec Ideal S1x1024 .f32) (p : Fin 512) (q : Fin 1024) :
    withBias acc b (ix2 p q) = acc (ix2 p q) + b (ix2 (0 : Fin 1) q) := by
  unfold withBias k0_pay3
  simp only [shapeCast_self]
  rw [addf_apply]
  refine congrArg (acc (ix2 p q) + ·) ?_
  refine broadcastTo_apply b broadcasts_S1x1024_S512x1024 (ix2 p q) (ix2 (0 : Fin 1) q) (fun a => ?_)
  match a with
  | ⟨0, _⟩ => show (0 : Nat) = if (1 : Nat) = 1 then 0 else _; rw [if_pos rfl]
  | ⟨1, _⟩ => show q.val = if (1024 : Nat) = 1 then 0 else q.val; rw [if_neg (by decide)]

end Cert.KernelIdeal.Body

end
-- ==== Proof.Blocks.lean ====
/-
  The blocks a grid point sees, read off the argument arrays.

  Point t = 16·i + 4·j + k of the 4 × 4 × 4 grid (k fastest) is handed rows 512·i … 512·i + 511 and columns
  1024·k … 1024·k + 1023 of x, rows 1024·k … of w with its columns 1024·j …, and columns 1024·j … of the bias row;
  its output block is rows 512·i … and columns 1024·j … of the result. Before the kernel starts the host narrows x
  and w to a shorter float format, which on the extended reals changes nothing, and lays the bias out as one row.
-/
import proofs.«123886_j11424613007510_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem

namespace Cert.KernelIdeal.Blocks

open Cert.KernelIdeal Cert.KernelIdeal.Gen

variable (m : (ℓ : Loc nD τ sig) → Buf (Elt Ideal) ℓ)

/-- The three arguments as launched, on core `c`. -/
abbrev xs (c : Dev nD) : Vec Ideal S2048x4096 .f32 := m ((c : Thread nD τ).loc main_arg0)
abbrev ws (c : Dev nD) : Vec Ideal S4096x4096 .f32 := m ((c : Thread nD τ).loc main_arg1)
abbrev bs (c : Dev nD) : Vec Ideal S4096 .f32 := m ((c : Thread nD τ).loc main_arg2)

/-- What the kernel finds in the narrowed copy of x is x itself. -/
theorem found_x (c : Dev nD) : (V m c main_v0 : S2048x4096.Idx → EReal) = xs m c := by
  dsimp only [V, hostOps0]; after_results; rfl

/-- Likewise for w. -/
theorem found_w (c : Dev nD) : (V m c main_v1 : S4096x4096.Idx → EReal) = ws m c := by
  dsimp only [V, hostOps0]; after_results; rfl

/-- The bias row's entry (0, q) is the bias's entry q. -/
theorem found_b (c : Dev nD) (q : Fin 4096) :
    (V m c main_v2 : S1x4096.Idx → EReal) (ix2 (0 : Fin 1) q) = bs m c (ix1 q) := by
  have e : (V m c main_v2 : S1x4096.Idx → EReal) = shapeCast S1x4096 (bs m c) shapeCasts_S4096_S1x4096 := by
    dsimp only [V, hostOps0]; after_results; rfl
  rw [e]
  refine shapeCast_apply (bs m c) shapeCasts_S4096_S1x4096 (ix2 (0 : Fin 1) q) (ix1 q) ?_
  rw [Shape.rowMajor_val_one, Shape.rowMajor_val_two]
  show q.val = 0 * 4096 + q.val
  omega

/-- Which block of its array each window is on at point `t`, decided over the 64 points. -/
theorem on_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)

/-- x's block at point `t`, entry (p, k). -/
theorem xblk_apply (c : Dev nD) (t : Fin cfg0.N) (p : Fin 512) (k : Fin 1024)
    (hr : 512 * (t.val / 16) + p.val < 2048) (hk : 1024 * (t.val % 4) + k.val < 4096) :
    (iblk m c 0 t : Vec Ideal S512x1024 .bf16) (ix2 p k)
      = xs m c (ix2 (⟨512 * (t.val / 16) + p.val, hr⟩ : Fin 2048) (⟨1024 * (t.val % 4) + k.val, hk⟩ : Fin 4096)) := by
  unfold iblk
  rw [View.read_apply]
  show V m c main_v0 _ = _
  rw [found_x]
  congr 1
  funext a
  apply Fin.ext
  match a with
  | ⟨0, _⟩ => show win0_0.index t 0 * 512 + 1 * p.val = 512 * (t.val / 16) + p.val; rw [(on_x t).1]; omega
  | ⟨1, _⟩ => show win0_0.index t 1 * 1024 + 1 * k.val = 1024 * (t.val % 4) + k.val; rw [(on_x t).2]; omega

theorem on_w : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)

theorem on_b : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)

theorem on_o : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- w's block at point `t`, entry (k, q). -/
theorem wblk_apply (c : Dev nD) (t : Fin cfg0.N) (k : Fin 1024) (q : Fin 1024)
    (hk : 1024 * (t.val % 4) + k.val < 4096) (hq : 1024 * (t.val / 4 % 4) + q.val < 4096) :
    (iblk m c 1 t : Vec Ideal S1024x1024 .bf16) (ix2 k q)
      = ws m c (ix2 (⟨1024 * (t.val % 4) + k.val, hk⟩ : Fin 4096) (⟨1024 * (t.val / 4 % 4) + q.val, hq⟩ : Fin 4096)) := by
  unfold iblk
  rw [View.read_apply]
  show V m c main_v1 _ = _
  rw [found_w]
  congr 1
  funext a
  apply Fin.ext
  match a with
  | ⟨0, _⟩ => show win0_1.index t 0 * 1024 + 1 * k.val = 1024 * (t.val % 4) + k.val; rw [(on_w t).1]; omega
  | ⟨1, _⟩ => show win0_1.index t 1 * 1024 + 1 * q.val = 1024 * (t.val / 4 % 4) + q.val; rw [(on_w t).2]; omega

/-- The bias row's block at point `t`, entry (0, q). -/
theorem bblk_apply (c : Dev nD) (t : Fin cfg0.N) (q : Fin 1024) (hq : 1024 * (t.val / 4 % 4) + q.val < 4096) :
    (iblk m c 2 t : Vec Ideal S1x1024 .f32) (ix2 (0 : Fin 1) q)
      = bs m c (ix1 (⟨1024 * (t.val / 4 % 4) + q.val, hq⟩ : Fin 4096)) := by
  unfold iblk
  rw [View.read_apply]
  show V m c main_v2 _ = _
  refine Eq.trans (congrArg (V m c main_v2) ?_) (found_b m c ⟨1024 * (t.val / 4 % 4) + q.val, hq⟩)
  funext a
  apply Fin.ext
  match a with
  | ⟨0, _⟩ => show win0_2.index t 0 * 1 + 1 * 0 = 0; rw [(on_b t).1]
  | ⟨1, _⟩ => show win0_2.index t 1 * 1024 + 1 * q.val = 1024 * (t.val / 4 % 4) + q.val; rw [(on_b t).2]; omega

end Cert.KernelIdeal.Blocks

end
-- ==== Proof.Fold.lean ====
/-
  The running block across a run of four points, and the output block at the run's last point.

  A run is the four consecutive points 4·u, …, 4·u + 3 that share an output block and walk the contraction axis.
  Each point adds its own product — the x-block times the w-block it is handed — to the running block, the first
  point starting from zeros. So after the point at offset o of its run the running block's entry is
  `0 + ∑ s ≤ o, product of point 4·u + s`, and the output block written at offset 3 is that with all four
  products, plus the bias row.
-/
import proofs.«123886_j11424613007510_1_alg».proof.Proof.Gen.KernelIdeal.Value
import proofs.«123886_j11424613007510_1_alg».proof.Proof.Entry
import proofs.«123886_j11424613007510_1_alg».proof.Proof.Blocks

noncomputable section

open scoped BigOperators
open Idealize.ShloMosaic Idealize.ShloMosaic.TcCoe Idealize.ShloMosaic.ValueIdx Idealize.SL.Sem

namespace Cert.KernelIdeal.Fold

open Cert.KernelIdeal Cert.KernelIdeal.Gen

variable (m : (ℓ : Loc nD τ sig) → Buf (Elt Ideal) ℓ)

/-- The blocks point `t` is handed, at their literal shapes. -/
abbrev xblk (c : Dev nD) (t : Fin cfg0.N) : Vec Ideal S512x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- Point `n`'s product at an entry of the block: row of its x-block times column of its w-block (0 past the grid,
    where it is never used). -/
def prod (c : Dev nD) (n : ℕ) (y : S512x1024.Idx) : EReal :=
  if h : n < cfg0.N then
    ∑ k : Fin 1024, xblk m c ⟨n, h⟩ (ix2 (y 0 : Fin 512) k) * wblk m c ⟨n, h⟩ (ix2 k (y 1 : Fin 1024))
  else 0

/-- What point `n` leaves in the running block, at an entry: it starts from 0 at the first point of a run and from
    what the point before left elsewhere, and adds its product. -/
theorem scAt_apply (c : Dev nD) (n : ℕ) (hb : n < cfg0.N) (acc : Vec Ideal S512x1024 .f32) (y : S512x1024.Idx) :
    Value.scAt0_0 m c n hb acc y = (if n % 4 = 0 then 0 else acc y) + prod m c n y := by
  obtain ⟨p, q, rfl⟩ : ∃ (p : Fin 512) (q : Fin 1024), y = ix2 p q := ⟨y 0, y 1, eq_ix2 y⟩
  have hN : n < 64 := lt_of_lt_of_eq hb N_0
  unfold Value.scAt0_0 prod
  rw [dif_pos hb]
  by_cases h0 : n % 4 = 0
  · have h1 : ¬n % 4 = 3 := by omega
    rw [dif_pos h0, dif_neg h1, if_pos h0, Body.acc_first, Body.step_apply, Body.zeros_apply]
  · by_cases h1 : n % 4 = 3
    · rw [dif_neg h0, dif_pos h1, if_neg h0, Body.acc_last, Body.step_apply]
    · rw [dif_neg h0, dif_neg h1, if_neg h0, Body.acc_middle, Body.step_apply]

/-- The running block after point `t`: `0` plus the products of its run's points up to `t`. -/
theorem acc_at (c : Dev nD) (t : Fin cfg0.N) (y : S512x1024.Idx) :
    (outsAt0 m c t.val t.isLt).2 y = 0 + ∑ s ∈ Finset.range (t.val % 4 + 1), prod m c (4 * (t.val / 4) + s) y := by
  rw [Value.soutsAt0_0_eq]
  have hN : t.val < 64 := lt_of_lt_of_eq t.isLt N_0
  refine Pipeline.accAt_add_apply (ι := S512x1024.Idx) (β := EReal)
    (fun n h => Value.scAt0_0 m c n h (VS0_0.read (Elt Ideal) VS0_0.junk)) (Value.scAt0_0 m c) (fun _ => 0) (prod m c)
    (4 * (t.val / 4)) 3 (fun h i => ?_) (fun n h acc i hlo hhi => ?_) (t.val % 4) (by omega) _ y
  · rw [scAt_apply, if_pos (by omega)]
  · rw [scAt_apply, if_neg (by omega)]

/-- The output block at the last point of a run, at entry (p, q): `0` plus the run's four products, plus the bias
    row's entry q. -/
theorem out_at (c : Dev nD) (t : Fin cfg0.N) (h3 : t.val % 4 = 3) (p : Fin 512) (q : Fin 1024) :
    (outsAt0 m c t.val t.isLt).1 (ix2 p q)
      = (0 + ∑ s ∈ Finset.range 4, prod m c (4 * (t.val / 4) + s) (ix2 p q)) + bblk m c t (ix2 (0 : Fin 1) q) := by
  have h0 : ¬t.val % 4 = 0 := by omega
  have e2 := acc_at m c t (ix2 p q)
  rw [h3] at e2
  rw [← e2, outsAt0_C m c t h0 h3]
  dsimp only
  rw [Body.out_last, Body.acc_last, Body.withBias_apply]

end Cert.KernelIdeal.Fold

end
-- ==== Proof.Spec.lean ====
/-
  The result as one function of the whole arguments, and the one law of sums the proof needs.

  Entry (r, c) of the result is the inner product of row r of x with column c of w, a sum over all 4096 positions of
  the contraction axis, plus entry c of the bias. The kernel reaches the same number by adding up the four consecutive
  quarters of that sum, 1024 positions each, starting from 0. In a commutative monoid a finite sum may be regrouped
  freely, so the two agree; on the extended reals this needs no finiteness, since only the order and grouping of a
  sum change, nothing is distributed or cancelled.
-/
import Idealize.ShloMosaic.Lib.ValueIdx
import Idealize.ShloMosaic.PureOps.Ideal
import Mathlib.Algebra.BigOperators.Fin
import Mathlib.Logic.Equiv.Fin.Basic

noncomputable section

open scoped BigOperators
open Idealize.ShloMosaic Idealize.ShloMosaic.ValueIdx

namespace Cert.LinearLayer

/-- A sum over 4096 consecutive positions is the sum, over the four quarters, of each quarter's 1024 terms. -/
theorem sum_quarters {β : Type*} [AddCommMonoid β] (f : Fin 4096 → β) :
    ∑ k : Fin 4096, f k
      = ∑ s : Fin 4, ∑ kk : Fin 1024, f ⟨1024 * s.val + kk.val, by have := s.isLt; have := kk.isLt; omega⟩ := by
  have e := Equiv.sum_comp (finProdFinEquiv : Fin 4 × Fin 1024 ≃ Fin (4 * 1024)) (f : Fin (4 * 1024) → β)
  rw [← e, Fintype.sum_prod_type]
  refine Finset.sum_congr rfl fun s _ => Finset.sum_congr rfl fun kk _ => congrArg f (Fin.ext ?_)
  show kk.val + 1024 * s.val = 1024 * s.val + kk.val
  omega

/-- The linear layer on the extended reals: `x · w + bias`, entry by entry. -/
def result (x : (⟨2, ![2048, 4096]⟩ : Shape).Idx → EReal) (w : (⟨2, ![4096, 4096]⟩ : Shape).Idx → EReal)
    (b : (⟨1, ![4096]⟩ : Shape).Idx → EReal) : (⟨2, ![2048, 4096]⟩ : Shape).Idx → EReal :=
  fun i => (∑ k : Fin 4096, x (ix2 (i 0) k) * w (ix2 k (i 1))) + b (ix1 (i 1))

/-- The result at an entry whose coordinates are known as numbers. -/
theorem result_at (x : (⟨2, ![2048, 4096]⟩ : Shape).Idx → EReal) (w : (⟨2, ![4096, 4096]⟩ : Shape).Idx → EReal)
    (b : (⟨1, ![4096]⟩ : Shape).Idx → EReal) (i : (⟨2, ![2048, 4096]⟩ : Shape).Idx) (r : Fin 2048) (c : Fin 4096)
    (h0 : (i 0).val = r.val) (h1 : (i 1).val = c.val) :
    result x w b i = (∑ k : Fin 4096, x (ix2 r k) * w (ix2 k c)) + b (ix1 c) := by
  obtain rfl : i 0 = r := Fin.ext h0
  obtain rfl : i 1 = c := Fin.ext h1
  rfl

/-- The result at entry (r, c) as the kernel accumulates it: from 0, the four quarters in turn, then the bias. -/
theorem result_quarters (x : (⟨2, ![2048, 4096]⟩ : Shape).Idx → EReal) (w : (⟨2, ![4096, 4096]⟩ : Shape).Idx → EReal)
    (b : (⟨1, ![4096]⟩ : Shape).Idx → EReal) (r : Fin 2048) (c : Fin 4096) :
    (0 + ∑ s : Fin 4, ∑ kk : Fin 1024,
        x (ix2 r (⟨1024 * s.val + kk.val, by have := s.isLt; have := kk.isLt; omega⟩ : Fin 4096))
          * w (ix2 (⟨1024 * s.val + kk.val, by have := s.isLt; have := kk.isLt; omega⟩ : Fin 4096) c)) + b (ix1 c)
      = (∑ k : Fin 4096, x (ix2 r k) * w (ix2 k c)) + b (ix1 c) := by
  rw [zero_add, sum_quarters (fun k => x (ix2 r k) * w (ix2 k c))]

end Cert.LinearLayer

end
-- ==== Proof.Whole.lean ====
/-
  The result array after the kernel's run is the linear layer of the arguments.

  The output block of the run over the contraction axis that belongs to row block i and column block j is written back
  once, at the run's last point t = 16·i + 4·j + 3. Its entry (p, q) is 0 plus the four quarter sums plus the bias,
  read off the arguments at row 512·i + p and column 1024·j + q — which is the result function's entry there, the
  four quarters regrouped into the one sum over 4096 positions. Every entry (r, c) of the array lies in exactly such a
  block (i = r / 512, j = c / 1024), so after the run the array is the result function everywhere.
-/
import proofs.«123886_j11424613007510_1_alg».proof.Proof.Fold
import proofs.«123886_j11424613007510_1_alg».proof.Proof.Spec

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The linear layer of the arguments as launched on core `c`, as contents of the result array. -/
abbrev answer (c : Dev nD) : Buf (Elt Ideal) ((c : Thread nD τ).loc main_v3) :=
  Cert.LinearLayer.result (Blocks.xs m c) (Blocks.ws m c) (Blocks.bs m c)

/-- Equal coordinates, equal index. -/
theorem ix2_congr {a b : Nat} (r r' : Fin a) (k k' : Fin b) (h1 : r.val = r'.val) (h2 : k.val = k'.val) :
    ix2 r k = ix2 r' k' := by
  obtain rfl : r = r' := Fin.ext h1
  obtain rfl : k = k' := Fin.ext h2
  rfl

/-- The product of the point at offset `s` of `t`'s run, at entry (p, q), read off the arguments: row r of x against
    column cc of w over the s-th quarter of the contraction axis. -/
theorem prod_at (c : Dev nD) (t : Fin cfg0.N) (s : Fin 4) (p : Fin 512) (q : Fin 1024) (r : Fin 2048) (cc : Fin 4096)
    (hr : r.val = 512 * (t.val / 16) + p.val) (hc : cc.val = 1024 * (t.val / 4 % 4) + q.val) :
    Fold.prod m c (4 * (t.val / 4) + s.val) (ix2 p q)
      = ∑ kk : Fin 1024,
          Blocks.xs m c (ix2 r (⟨1024 * s.val + kk.val, by have := s.isLt; have := kk.isLt; omega⟩ : Fin 4096))
            * Blocks.ws m c (ix2 (⟨1024 * s.val + kk.val, by have := s.isLt; have := kk.isLt; omega⟩ : Fin 4096) cc) := by
  have hN : t.val < 64 := lt_of_lt_of_eq t.isLt N_0
  have hs := s.isLt
  have hp := p.isLt
  have hq := q.isLt
  have hn : 4 * (t.val / 4) + s.val < cfg0.N :=
    lt_of_lt_of_eq (show 4 * (t.val / 4) + s.val < 64 by omega) (show 64 = cfg0.N from N_0.symm)
  unfold Fold.prod
  rw [dif_pos hn]
  refine Finset.sum_congr rfl fun kk _ => ?_
  have hkk := kk.isLt
  show Fold.xblk m c ⟨4 * (t.val / 4) + s.val, hn⟩ (ix2 p kk) * Fold.wblk m c ⟨4 * (t.val / 4) + s.val, hn⟩ (ix2 kk q) = _
  have ex : Fold.xblk m c ⟨4 * (t.val / 4) + s.val, hn⟩ (ix2 p kk)
      = Blocks.xs m c (ix2 r (⟨1024 * s.val + kk.val, by omega⟩ : Fin 4096)) :=
    (Blocks.xblk_apply m c ⟨4 * (t.val / 4) + s.val, hn⟩ p kk (by dsimp only; omega) (by dsimp only; omega)).trans
      (congrArg (Blocks.xs m c) (ix2_congr _ _ _ _ (by dsimp only; omega) (by dsimp only; omega)))
  have ew : Fold.wblk m c ⟨4 * (t.val / 4) + s.val, hn⟩ (ix2 kk q)
      = Blocks.ws m c (ix2 (⟨1024 * s.val + kk.val, by omega⟩ : Fin 4096) cc) :=
    (Blocks.wblk_apply m c ⟨4 * (t.val / 4) + s.val, hn⟩ kk q (by dsimp only; omega) (by dsimp only; omega)).trans
      (congrArg (Blocks.ws m c) (ix2_congr _ _ _ _ (by dsimp only; omega) (by dsimp only; omega)))
  rw [ex, ew]

/-- What a flushing point writes back is its block of the linear layer. -/
theorem flushed_eq (c : Dev nD) (t : Fin cfg0.N) (hf : (cfg0.win 3).flush t = true) :
    (dats m 0 c).flushed 3 t = ((cfg0.win 3).blk t).view.read (Elt Ideal) (answer m c) := by
  have h3 : t.val % 4 = 3 := (flush0_3 t).mp hf
  have hN : t.val < 64 := lt_of_lt_of_eq t.isLt N_0
  rw [Value.flushed3]
  refine funext fun (j : S512x1024.Idx) => ?_
  obtain ⟨p, q, rfl⟩ : ∃ (p : Fin 512) (q : Fin 1024), j = ix2 p q := ⟨j 0, j 1, eq_ix2 j⟩
  have hp := p.isLt
  have hq := q.isLt
  have hr : 512 * (t.val / 16) + p.val < 2048 := by omega
  have hc : 1024 * (t.val / 4 % 4) + q.val < 4096 := by omega
  rw [View.read_apply]
  show (outsAt0 m c t.val t.isLt).1 (ix2 p q) = answer m c (((cfg0.win 3).blk t).view.emb (ix2 p q))
  have e1 := Fold.out_at m c t h3 p q
  have e2 : Fold.bblk m c t (ix2 (0 : Fin 1) q) = Blocks.bs m c (ix1 (⟨1024 * (t.val / 4 % 4) + q.val, hc⟩ : Fin 4096)) :=
    Blocks.bblk_apply m c t q hc
  have e3 : ∑ s ∈ Finset.range 4, Fold.prod m c (4 * (t.val / 4) + s) (ix2 p q)
      = ∑ s : Fin 4, ∑ kk : Fin 1024,
          Blocks.xs m c (ix2 (⟨512 * (t.val / 16) + p.val, hr⟩ : Fin 2048)
              (⟨1024 * s.val + kk.val, by have := s.isLt; have := kk.isLt; omega⟩ : Fin 4096))
            * Blocks.ws m c (ix2 (⟨1024 * s.val + kk.val, by have := s.isLt; have := kk.isLt; omega⟩ : Fin 4096)
              (⟨1024 * (t.val / 4 % 4) + q.val, hc⟩ : Fin 4096)) := by
    rw [← Fin.sum_univ_eq_sum_range (fun s => Fold.prod m c (4 * (t.val / 4) + s) (ix2 p q)) 4]
    exact Finset.sum_congr rfl fun s _ => prod_at m c t s p q ⟨_, hr⟩ ⟨_, hc⟩ rfl rfl
  have e4 := Cert.LinearLayer.result_at (Blocks.xs m c) (Blocks.ws m c) (Blocks.bs m c)
    (((cfg0.win 3).blk t).view.emb (ix2 p q)) ⟨_, hr⟩ ⟨_, hc⟩
    (by show win0_3.index t 0 * 512 + 1 * p.val = 512 * (t.val / 16) + p.val; rw [(Blocks.on_o t).1]; omega)
    (by show win0_3.index t 1 * 1024 + 1 * q.val = 1024 * (t.val / 4 % 4) + q.val; rw [(Blocks.on_o t).2]; omega)
  refine e1.trans ?_
  rw [e2, e3]
  exact (Cert.LinearLayer.result_quarters _ _ _ _ _).trans e4.symm

/-- An entry of the array is in point `t`'s output block iff each coordinate is in the block's range. -/
theorem mem_blk (t : Fin cfg0.N) (i : S2048x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v3).slice (win0_3.rect t)).set ↔ _
  rw [View.set_slice_whole, Rect.mem_set_unit]
  exact Iff.rfl

/-- Every entry (r, c) is in the block written back at point 16·(r / 512) + 4·(c / 1024) + 3. -/
theorem cover (i : S2048x4096.Idx) :
    ∃ t : Fin cfg0.N, (cfg0.win 3).flush t = true ∧ i ∈ ((cfg0.win 3).blk t).view.set := by
  have h0 : (i 0).val < 2048 := (i 0).isLt
  have h1 : (i 1).val < 4096 := (i 1).isLt
  obtain ⟨t, tv⟩ : ∃ t : Fin cfg0.N, t.val = 16 * ((i 0).val / 512) + 4 * ((i 1).val / 1024) + 3 :=
    ⟨⟨16 * ((i 0).val / 512) + 4 * ((i 1).val / 1024) + 3,
      lt_of_lt_of_eq (show 16 * ((i 0).val / 512) + 4 * ((i 1).val / 1024) + 3 < 64 by omega) (show 64 = cfg0.N from N_0.symm)⟩, rfl⟩
  refine ⟨t, (flush0_3 t).mpr (by rw [tv]; omega), ?_⟩
  rw [mem_blk]
  obtain ⟨e0, e1⟩ := Blocks.on_o t
  intro a
  match a with
  | ⟨0, _⟩ =>
    show win0_3.index t 0 * 512 ≤ (i 0).val ∧ (i 0).val < win0_3.index t 0 * 512 + 512
    rw [e0, tv]; omega
  | ⟨1, _⟩ =>
    show win0_3.index t 1 * 1024 ≤ (i 1).val ∧ (i 1).val < win0_3.index t 1 * 1024 + 1024
    rw [e1, tv]; omega

/-- The result array after the run. -/
theorem final (c : Dev nD) : (dats m 0 c).arrAt 3 cfg0.N = answer m c :=
  (dats m 0 c).arrAt_eq_of_cover 3 (answer m c) (flushed_eq m c) cover

/-- The kernel's run: it terminates with the result array at the linear layer of the arguments, which it leaves
    unchanged. -/
theorem run : θ_run defs (onTc (τ := τ) (main (F := Ideal))) ⟨m, fun _ => 0, ρ⟩ fun r => ∀ c : Dev nD,
      r.2.mem ((c : Thread nD τ).loc main_v3) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefSide.lean ====
/-
  The reference computes the linear layer.

  The reference is the host's one product of x [2048, 4096] with w [4096, 4096], contracting x's columns against w's
  rows, plus the bias laid out as a row and repeated down the 2048 rows. On the extended reals its entry (r, c) is
  `∑ k, x (r, k) · w (k, c) + bias c`, the sum over all 4096 positions: the result function.
-/
import proofs.«123886_j11424613007510_1_alg».proof.Proof.Gen.ReferenceIdeal.Read
import proofs.«123886_j11424613007510_1_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Gen

/-- The reference's last stage, as a function of the three arguments, is the result function. -/
theorem stage_eq (x0 : Vec Ideal S2048x4096 .f32) (x1 : Vec Ideal S4096x4096 .f32) (x2 : Vec Ideal S4096 .f32) :
    Read.val_main_v3 (F := Ideal) x0 x1 x2 = Cert.LinearLayer.result x0 x1 x2 := by
  funext i
  have el : ∀ k : Fin 4096, Read.lidx_main_v0 i k = ix2 (i 0) k := fun k =>
    funext fun a => Fin.ext (by match a with | ⟨0, _⟩ => rfl | ⟨1, _⟩ => rfl)
  have er : ∀ k : Fin 4096, Read.ridx_main_v0 i k = ix2 k (i 1) := fun k =>
    funext fun a => Fin.ext (by match a with | ⟨0, _⟩ => rfl | ⟨1, _⟩ => rfl)
  have eb : Read.idx_main_v1 (Read.idx_main_v2 i) = ix1 (i 1) :=
    funext fun a => Fin.ext (by match a with | ⟨0, _⟩ => rfl)
  rw [Read.val_main_v3_apply, Read.val_main_v0_apply, Read.val_main_v2_apply, Read.val_main_v1_apply]
  show (∑ k : Fin 4096, x0 (Read.lidx_main_v0 i k) * x1 (Read.ridx_main_v0 i k))
      + x2 (Read.idx_main_v1 (Read.idx_main_v2 i)) = _
  unfold Cert.LinearLayer.result
  simp only [el, er, eb]
  rfl

end Cert.ReferenceIdeal.RefValue

end
-- ==== Proof.lean ====
/-
  A linear layer computed block by block is the linear layer computed whole, on the extended reals.

  The kernel computes `x · w + bias` for x [2048, 4096], w [4096, 4096] and bias [4096] over a 4 × 4 × 4 grid: the
  output is cut into 4 × 4 blocks of [512, 1024], and for each of them the contraction axis is walked in four slices
  of 1024 positions, the slice products added one after another into a running block that starts at zero; after the
  fourth slice the bias row is added and the block is written to the result. The reference is one product over the whole
  contraction axis plus the bias. With floats read as extended reals and every operation exact, narrowing x and w to a
  shorter float format changes nothing, and entry (r, c) of both programs is
  `∑ k < 4096, x (r, k) · w (k, c) + bias c`: the kernel's `((((0 + S₀) + S₁) + S₂) + S₃) + bias c`, with `Sₛ` the
  sum over the s-th slice, is that sum regrouped. Regrouping a finite sum is valid in any commutative monoid, so the
  inputs' finiteness is never used.

  The modules: Body (what one grid point leaves in the running block and in the output block), Entry (that arithmetic at
  one entry), Blocks (the blocks a point is handed, read off the arguments), Fold (the running block across a run of
  four points), Spec (the result function and the regrouping law), Whole (the result array after the kernel's run),
  RefSide (the reference's result), LibPlainDot (a plain matrix product at one entry). The three frames are the
  generated ones; the kernel's idealization rewrote nothing, so there is nothing to preserve.
-/
import proofs.«123886_j11424613007510_1_alg».proof.Defs
import proofs.«123886_j11424613007510_1_alg».proof.Proof.Gen.Kernel
import proofs.«123886_j11424613007510_1_alg».proof.Proof.Gen.Kernel.Skeleton
import proofs.«123886_j11424613007510_1_alg».proof.Proof.Gen.Kernel.Launch
import proofs.«123886_j11424613007510_1_alg».proof.Proof.Gen.Kernel.Points
import proofs.«123886_j11424613007510_1_alg».proof.Proof.Gen.Kernel.Frame
import proofs.«123886_j11424613007510_1_alg».proof.Proof.Gen.KernelIdeal
import proofs.«123886_j11424613007510_1_alg».proof.Proof.Gen.KernelIdeal.Skeleton
import proofs.«123886_j11424613007510_1_alg».proof.Proof.Gen.KernelIdeal.Launch
import proofs.«123886_j11424613007510_1_alg».proof.Proof.Gen.KernelIdeal.Points
import proofs.«123886_j11424613007510_1_alg».proof.Proof.Gen.KernelIdeal.Frame
import proofs.«123886_j11424613007510_1_alg».proof.Proof.Gen.ReferenceIdeal
import proofs.«123886_j11424613007510_1_alg».proof.Proof.Gen.Pre_finite_inputs
import proofs.«123886_j11424613007510_1_alg».proof.Proof.Gen.KernelIdeal.Value
import proofs.«123886_j11424613007510_1_alg».proof.Proof.Gen.ReferenceIdeal.Run
import proofs.«123886_j11424613007510_1_alg».proof.Proof.Gen.ReferenceIdeal.Read
import proofs.«123886_j11424613007510_1_alg».proof.Proof.Whole
import proofs.«123886_j11424613007510_1_alg».proof.Proof.RefSide
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the linear layer of those arguments. -/
theorem algebraic : Cert.algebraic_KernelIdeal_ReferenceIdeal := by
  intro m ρ m' ρ' _ hagree
  refine ⟨fun c => Cert.KernelIdeal.Whole.answer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
